-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S8192 : Shape := ⟨1, ![8192]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel

variable [Facts]

def fn {F : FTy → Type} [FloatOps F] (main_arg0 : FVec F S2048x8192 .f32) (main_arg1 : IVec S2048x8192 32) (main_arg2 : IVec S8192 32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  main_v3
-- ==== Kernel.lean ====
abbrev S2048x8192 : Shape := ⟨2, ![2048, 8192]⟩
abbrev S8192 : Shape := ⟨1, ![8192]⟩
abbrev S256 : Shape := ⟨1, ![256]⟩
abbrev S8192x1 : Shape := ⟨2, ![8192, 1]⟩
abbrev S1x256 : Shape := ⟨2, ![1, 256]⟩
abbrev S8192x256 : Shape := ⟨2, ![8192, 256]⟩
abbrev S2048x256 : Shape := ⟨2, ![2048, 256]⟩
abbrev S512x2048 : Shape := ⟨2, ![512, 2048]⟩
abbrev S512x256 : Shape := ⟨2, ![512, 256]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S2048x8192, .i32⟩
  | .hbm, ⟨2, _⟩ => ⟨S8192, .i32⟩
  | .hbm, ⟨3, _⟩ => ⟨S256, .i32⟩
  | .hbm, ⟨4, _⟩ => ⟨S8192x1, .i32⟩
  | .hbm, ⟨5, _⟩ => ⟨S1x256, .i32⟩
  | .hbm, ⟨6, _⟩ => ⟨S8192x256, .i32⟩
  | .hbm, ⟨7, _⟩ => ⟨S8192x256, .i32⟩
  | .hbm, ⟨8, _⟩ => ⟨S8192x256, .i1⟩
  | .hbm, ⟨9, _⟩ => ⟨S8192x256, .bf16⟩
  | .hbm, ⟨10, _⟩ => ⟨S2048x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S8192x256, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2048_i32 : BitVec 32 := 2048#32
  let v27 : BitVec 32 := Scalar.muli arg1 c2048_i32
  v27
def k0_off1 (i : grid0.Coords) : Fin 2 → Nat :=
  let arg1 : BitVec 32 := BitVec.ofNat 32 (i 1).val
  let c2048_i32 : BitVec 32 := 2048#32
  let v27 : BitVec 32 := Scalar.muli arg1 c2048_i32
  let v28 : BitVec 32 := v27
  let v29 : Index := Scalar.indexCast v28
  let c0_8 : Index := 0#32
  ![v29.toNat, 0]
def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8192_S8192x1_0 : S8192.BroadcastsInDim S8192x1 (![0] : Fin 1 → Fin S8192x1.rank)
  bcast_S256_S1x256_1 : S256.BroadcastsInDim S1x256 (![1] : Fin 1 → Fin S1x256.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  h_S2048x256 : 0 < S2048x256.numel
  shapeCasts_S2048x256_S2048x256 : S2048x256.ShapeCasts S2048x256
  natLt_1_32 : 1 < 32
  reducesTo_S2048x256_S_d0_1 : S2048x256.ReducesTo [0, 1] S_
  h_S_ : 0 < S_.numel
  dot_S512x2048_S2048x256_S512x256_1_0_0_1_n_n_wf : DotDims.WF S512x2048 S2048x256 S512x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x8192.size a
  hwx0_0 : ∀ i : grid0.Coords, EltTy.bits .f32 = 32 ∨ (Rect.block (s := S2048x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x8192.size a
  hwx0_1 : ∀ i : grid0.Coords, EltTy.bits .i32 = 32 ∨ (Rect.block (s := S2048x8192) S512x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x256.size a
  hwx0_3 : ∀ i : grid0.Coords, EltTy.bits .f32 = 32 ∨ (Rect.block (s := S2048x256) S512x256.size (cc0_transform_3 i) (hinb0_3 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x8192 : Shape := ⟨2, ![2048, 8192]⟩
abbrev S8192 : Shape := ⟨1, ![8192]⟩
abbrev S_ : Shape := ⟨0, ![]⟩
abbrev S8192x2048 : Shape := ⟨2, ![8192, 2048]⟩
abbrev S256x2048 : Shape := ⟨2, ![256, 2048]⟩
abbrev S8192x1 : Shape := ⟨2, ![8192, 1]⟩
abbrev S2048x256 : Shape := ⟨2, ![2048, 256]⟩

abbrev nBuf : Space → Nat
  | .hbm => 59
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .i32⟩
  | .hbm, ⟨2, _⟩ => ⟨S8192, .i32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .i1⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S2048x8192, .f32⟩
  | .hbm, ⟨20, _⟩ => ⟨S8192x2048, .f32⟩
  | .hbm, ⟨21, _⟩ => ⟨S_, .f32⟩
  | .hbm, ⟨22, _⟩ => ⟨S256x2048, .f32⟩
  | .hbm, ⟨23, _⟩ => ⟨S8192x1, .i32⟩
  | .hbm, ⟨24, _⟩ => ⟨S256x2048, .f32⟩
  | .hbm, ⟨25, _⟩ => ⟨S2048x256, .f32⟩
  | .hbm, ⟨26, _⟩ => ⟨S2048x256, .f32⟩
  | .hbm, ⟨27, _⟩ => ⟨S8192x2048, .i32⟩
  | .hbm, ⟨28, _⟩ => ⟨S8192x2048, .f32⟩
  | .hbm, ⟨29, _⟩ => ⟨S_, .f32⟩
  | .hbm, ⟨30, _⟩ => ⟨S256x2048, .f32⟩
  | .hbm, ⟨31, _⟩ => ⟨S8192x1, .i32⟩
  | .hbm, ⟨32, _⟩ => ⟨S256x2048, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .i1⟩
  | .hbm, ⟨37, _⟩ => ⟨S2048x256, .f32⟩
  | .hbm, ⟨38, _⟩ => ⟨S_, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S_, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S_, .f32⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩

abbrev nD : Nat := 1
abbrev τ : Topo := Topo.v7x

variable {F : FTy → Type} [FloatOps F]

class Facts₀ : Prop where
  bcast_S_S2048x8192 : S_.BroadcastsInDim S2048x8192 (![] : Fin 0 → Fin S2048x8192.rank)
  transposes_S2048x8192_S8192x2048_1_0 : S2048x8192.Transposes [1, 0] S8192x2048
  bcast_S_S256x2048 : S_.BroadcastsInDim S256x2048 (![] : Fin 0 → Fin S256x2048.rank)
  bcast_S8192_S8192x1_0 : S8192.BroadcastsInDim S8192x1 (![0] : Fin 1 → Fin S8192x1.rank)
  transposes_S256x2048_S2048x256_1_0 : S256x2048.Transposes [1, 0] S2048x256
  bcast_S_S2048x256 : S_.BroadcastsInDim S2048x256 (![] : Fin 0 → Fin S2048x256.rank)
  reducesTo_S2048x256_S_d0_1 : S2048x256.ReducesTo [0, 1] S_
  h_S_ : 0 < S_.numel
  scatter_S256x2048_S8192x1_S8192x2048_1_0_0_1_wf : ScatterDims.WF S256x2048 S8192x1 S8192x2048 [1] [0] [0] 1

variable [Facts₀]

def scatter_S256x2048_S8192x1_S8192x2048_1_0_0_1 : ScatterDims S256x2048 S8192x1 S8192x2048 where
  updateWindowDims := [1]
  insertedWindowDims := [0]
  scatterDimsToOperandDims := [0]
  indexVectorDim := 1
  wf := scatter_S256x2048_S8192x1_S8192x2048_1_0_0_1_wf

class Facts : Prop extends Facts₀ where

variable [Facts]
-- ==== Proof.KPieces.lean ====
/-
  WHAT EACH CONTROL CASE OF THE KERNEL BODY LEAVES in the two carried accumulators and in the output block, as the body's
  named arithmetic applied to the blocks it loads.

  At a grid point (i, l) the body loads the logits block, the labels block and the rows [2048·l, 2048·l + 2048) of the
  resident one-hot matrix (`hotRows`), adds the two matrix products into the accumulators (first zeroing them when
  l = 0), and when l = 3 writes the cross-entropy terms of the two accumulators to the output block.
-/
import proofs.«419058_j10642928959862_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 2048 rows of the resident [8192, 256] one-hot matrix that the body loads at grid coordinates `i`. -/
def hotRows (i : grid0.Coords) (x2 : Vec F S8192x256 .bf16) : Vec F S2048x256 .bf16 :=
  View.ld x2 (Rect.unit (s := S8192x256) (k0_off1 i) S2048x256.size (k0_off1_inb i))

/-- The first accumulator after a point that adds into what it held: the held contents plus the log-probability product. -/
theorem sB0 (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : ¬cond0_1 i) (x0 : Vec F S512x2048 .f32) (x1 : Vec F S512x2048 .i32) (x2 : Vec F S8192x256 .bf16) (xs0 xs1 : Vec F S512x256 .f32) :
    sout0_B_0 c i arg2 harg2 arg3 harg3 arg4 harg4 arg5 harg5 arg6 harg6 arg7 harg7 hc0 hc1 x0 x1 x2 xs0 xs1 = k0_pay7 x0 (hotRows i x2) xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S512x256) hz, View.ld_unit_zero (S := S512x2048) hz, View.readCov_unit_zero (S := S512x256) _ hz]
  rfl

/-- The second accumulator after such a point: the held contents plus the label product. -/
theorem sB1 (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : ¬cond0_1 i) (x0 : Vec F S512x2048 .f32) (x1 : Vec F S512x2048 .i32) (x2 : Vec F S8192x256 .bf16) (xs0 xs1 : Vec F S512x256 .f32) :
    sout0_B_1 c i arg2 harg2 arg3 harg3 arg4 harg4 arg5 harg5 arg6 harg6 arg7 harg7 hc0 hc1 x0 x1 x2 xs0 xs1 = k0_pay1 (k0_pay5 x1) (k0_pay6 (hotRows i x2)) xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S512x256) hz, View.ld_unit_zero (S := S512x2048) hz, View.readCov_unit_zero (S := S512x256) _ hz]
  rfl

/-- The same at a last point of the label axis. -/
theorem sC0 (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : cond0_1 i) (x0 : Vec F S512x2048 .f32) (x1 : Vec F S512x2048 .i32) (x2 : Vec F S8192x256 .bf16) (xs0 xs1 : Vec F S512x256 .f32) :
    sout0_C_0 c i arg2 harg2 arg3 harg3 arg4 harg4 arg5 harg5 arg6 harg6 arg7 harg7 hc0 hc1 x0 x1 x2 xs0 xs1 = k0_pay7 x0 (hotRows i x2) xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S512x256) hz, View.ld_unit_zero (S := S512x2048) hz, View.readCov_unit_zero (S := S512x256) _ hz]
  rfl

theorem sC1 (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : cond0_1 i) (x0 : Vec F S512x2048 .f32) (x1 : Vec F S512x2048 .i32) (x2 : Vec F S8192x256 .bf16) (xs0 xs1 : Vec F S512x256 .f32) :
    sout0_C_1 c i arg2 harg2 arg3 harg3 arg4 harg4 arg5 harg5 arg6 harg6 arg7 harg7 hc0 hc1 x0 x1 x2 xs0 xs1 = k0_pay1 (k0_pay5 x1) (k0_pay6 (hotRows i x2)) xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S512x256) hz, View.ld_unit_zero (S := S512x2048) hz, View.readCov_unit_zero (S := S512x256) _ hz]
  rfl

/-- The output block at a last point of the label axis: the cross-entropy terms of the two updated accumulators. -/
theorem oC3 (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (hc0 : ¬cond0_0 i) (hc1 : cond0_1 i) (x0 : Vec F S512x2048 .f32) (x1 : Vec F S512x2048 .i32) (x2 : Vec F S8192x256 .bf16) (xs0 xs1 : Vec F S512x256 .f32) :
    out0_C_3 c i arg2 harg2 arg3 harg3 arg4 harg4 arg5 harg5 arg6 harg6 arg7 harg7 hc0 hc1 x0 x1 x2 xs0 xs1
      = k0_pay2 (k0_pay7 x0 (hotRows i x2) xs0) (k0_pay1 (k0_pay5 x1) (k0_pay6 (hotRows i x2)) xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S512x256) hz, View.ld_unit_zero (S := S512x2048) hz, View.readCov_unit_zero (S := S512x256) _ hz]
  rfl

/-- The first accumulator after a first point of the label axis: zeroed, then the product added. -/
theorem sA0 (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (hc0 : cond0_0 i) (hc1 : ¬cond0_1 i) (x0 : Vec F S512x2048 .f32) (x1 : Vec F S512x2048 .i32) (x2 : Vec F S8192x256 .bf16) :
    sout0_A_0 c i arg2 harg2 arg3 harg3 arg4 harg4 arg5 harg5 arg6 harg6 arg7 harg7 hc0 hc1 x0 x1 x2 = k0_pay7 x0 (hotRows i x2) k0_pay3 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S512x256) hz]
  simp only [View.readAt_eq_ld, harg2.read_unread, harg3.read_unread, harg4.read_unread, harg6.read_unread, harg7.read_unread, View.ld_unit_zero (S := S512x256) hz, View.ld_unit_zero (S := S512x2048) hz, View.readCov_unit_zero (S := S512x256) _ hz]
  rfl

theorem sA1 (c : Dev nD) (i : grid0.Coords) (arg2 : Memref sig .tc .vmem S512x2048 .f32) (harg2 : arg2.IsWhole) (arg3 : Memref sig .tc .vmem S512x2048 .i32) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (hc0 : cond0_0 i) (hc1 : ¬cond0_1 i) (x0 : Vec F S512x2048 .f32) (x1 : Vec F S512x2048 .i32) (x2 : Vec F S8192x256 .bf16) :
    sout0_A_1 c i arg2 harg2 arg3 harg3 arg4 harg4 arg5 harg5 arg6 harg6 arg7 harg7 hc0 hc1 x0 x1 x2 = k0_pay1 (k0_pay5 x1) (k0_pay6 (hotRows i x2)) k0_pay4 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S512x256) hz]
  simp only [View.readAt_eq_ld, harg2.read_unread, harg3.read_unread, harg4.read_unread, harg6.read_unread, harg7.read_unread, View.ld_unit_zero (S := S512x256) hz, View.ld_unit_zero (S := S512x2048) hz, View.readCov_unit_zero (S := S512x256) _ hz]
  rfl

end Cert.KernelIdeal.Pieces

end
-- ==== Proof.KArrays.lean ====
/-
  THE BLOCKS THE BODY LOADS, as elements of the arrays the region finds.

  The grid is 4 × 4, point t = 4·i + l. Window 0 (logits) and window 1 (labels) have blocks [512, 2048] at block index
  (i, l): element (p, k) of the block is element (512·i + p, 2048·l + k) of the array. Window 2 (the one-hot matrix) is
  one block, the whole [8192, 256] array, and the body loads its rows 2048·l + k. Window 3 (the output) has blocks
  [512, 256] at block index (i, 0), written back at the points with l = 3.
-/
import proofs.«419058_j10642928959862_2_alg».proof.Proof.Gen.KernelIdeal.Frame
import Idealize.ShloMosaic.Lib.Pipeline.Value
import Idealize.ShloMosaic.Lib.Tactic
import proofs.«419058_j10642928959862_2_alg».proof.Proof.KPieces
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen

variable {F : FTy → Type} [FloatOps F]

open Idealize.ShloMosaic.ValueIdx Cert.KernelIdeal.Pieces

variable (m : (ℓ : Loc nD τ sig) → Buf (Elt F) ℓ)

/-- The arrays as the region finds them, at their literal types. -/
abbrev xarr (c : Dev nD) : Vec F S2048x8192 .f32 := V m c main_arg0
abbrev yarr (c : Dev nD) : Vec F S2048x8192 .i32 := V m c main_arg1
abbrev harr (c : Dev nD) : Vec F S8192x256 .bf16 := V m c main_v6
/-- The blocks at a point, at their literal types. -/
abbrev xblk (c : Dev nD) (t : Fin cfg0.N) : Vec F S512x2048 .f32 := iblk m c 0 t
abbrev yblk (c : Dev nD) (t : Fin cfg0.N) : Vec F S512x2048 .i32 := iblk m c 1 t
abbrev hblk (c : Dev nD) (t : Fin cfg0.N) : Vec F S8192x256 .bf16 := iblk m c 2 t

theorem lt16 (t : Fin cfg0.N) : t.val < 16 := lt_of_lt_of_eq t.isLt (show cfg0.N = 16 from N_0)

/-- The row of the arrays under row `p` of the block at point `t`. -/
def rowOf (t : Fin cfg0.N) (p : Fin 512) : Fin 2048 := ⟨512 * (t.val / 4) + p.val, by have := lt16 t; have := p.isLt; omega⟩
/-- The label under column `k` of tile `t mod 4`. -/
def labOf (t : Fin cfg0.N) (k : Fin 2048) : Fin 8192 := ⟨2048 * (t.val % 4) + k.val, by have := k.isLt; omega⟩

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)
theorem off1 : ∀ t : Fin cfg0.N, k0_off1 (grid0.coords t) 0 = 2048 * (t.val % 4) ∧ k0_off1 (grid0.coords t) 1 = 0 :=
  (by decide +kernel : ∀ t : Fin grid0.N, k0_off1 (grid0.coords t) 0 = 2048 * (t.val % 4) ∧ k0_off1 (grid0.coords t) 1 = 0)

/-- An element of the logits block is the array's element under it. -/
theorem xblk_apply (c : Dev nD) (t : Fin cfg0.N) (p : Fin 512) (k : Fin 2048) :
    xblk m c t (ix2 p k) = xarr m c (ix2 (rowOf t p) (labOf t k)) := by
  unfold xblk iblk
  rw [View.read_apply]
  show V m c main_arg0 _ = V m c main_arg0 _
  congr 1
  funext a
  apply Fin.ext
  match a with
  | ⟨0, _⟩ => show win0_0.index t 0 * 512 + 1 * p.val = 512 * (t.val / 4) + p.val; rw [(idx0 t).1]; omega
  | ⟨1, _⟩ => show win0_0.index t 1 * 2048 + 1 * k.val = 2048 * (t.val % 4) + k.val; rw [(idx0 t).2]; omega

/-- An element of the labels block is the array's element under it. -/
theorem yblk_apply (c : Dev nD) (t : Fin cfg0.N) (p : Fin 512) (k : Fin 2048) :
    yblk m c t (ix2 p k) = yarr m c (ix2 (rowOf t p) (labOf t k)) := by
  unfold yblk iblk
  rw [View.read_apply]
  show V m c main_arg1 _ = V m c main_arg1 _
  congr 1
  funext a
  apply Fin.ext
  match a with
  | ⟨0, _⟩ => show win0_1.index t 0 * 512 + 1 * p.val = 512 * (t.val / 4) + p.val; rw [(idx1 t).1]; omega
  | ⟨1, _⟩ => show win0_1.index t 1 * 2048 + 1 * k.val = 2048 * (t.val % 4) + k.val; rw [(idx1 t).2]; omega

/-- The rows of the one-hot matrix the body loads at point `t` are the rows of tile `t mod 4`. -/
theorem hotRows_apply (c : Dev nD) (t : Fin cfg0.N) (k : Fin 2048) (g : Fin 256) :
    hotRows (grid0.coords t) (hblk m c t) (ix2 k g) = harr m c (ix2 (labOf t k) g) := by
  unfold hotRows hblk iblk
  show View.read _ _ _ _ = _
  rw [View.read_apply]
  show V m c main_v6 _ = V m c main_v6 _
  congr 1
  funext a
  apply Fin.ext
  match a with
  | ⟨0, _⟩ => show win0_2.index t 0 * 8192 + 1 * (k0_off1 (grid0.coords t) 0 + 1 * k.val) = 2048 * (t.val % 4) + k.val; rw [(idx2 t).1, (off1 t).1]; omega
  | ⟨1, _⟩ => show win0_2.index t 1 * 256 + 1 * (k0_off1 (grid0.coords t) 1 + 1 * g.val) = g.val; rw [(idx2 t).2, (off1 t).2]; omega

end Cert.KernelIdeal.Arrays

end
-- ==== Proof.Tiles.lean ====
/-
  THE ONE-HOT MEMBERSHIP MATRIX AND THE TILED ACCUMULATION, as definitions.

  `hot gid l g` is 1 when label `l`'s group word equals the word of the number `g`, else 0: the entry (l, g) of the
  [8192, 256] matrix against which a per-group sum over the labels becomes a matrix product.
  `tile A gid g n` is the n-th of four partial products: the sum over the 2048 labels of tile `n` of `A l · hot gid l g`.
  `acc4 A gid g` is what an accumulator holds after the four tiles, starting from zero and adding one tile at a time.
-/
import Idealize.ShloMosaic.PureOps.Ideal
import Idealize.ShloMosaic.Lib.ValueIdx

noncomputable section

open scoped BigOperators

namespace Cert.GroupBce

open Idealize.ShloMosaic Idealize.ShloMosaic.ValueIdx

/-- The one-hot entry (l, g): 1 if label `l`'s group word is the word of `g`, else 0. -/
def hot (gid : IVec ⟨1, ![8192]⟩ 32) (l : Fin 8192) (g : Fin 256) : EReal :=
  (((IntOp.cmpi .eq (gid (ix1 l)) (BitVec.ofNat 32 g.val)).toNat : ℝ) : EReal)

/-- Label number `2048 · n + k` of tile `n`. -/
def lab (n : Fin 4) (k : Fin 2048) : Fin 8192 := ⟨2048 * n.val + k.val, by have := n.isLt; have := k.isLt; omega⟩

/-- The partial product over tile `n`. -/
def tile (A : Fin 8192 → EReal) (gid : IVec ⟨1, ![8192]⟩ 32) (g : Fin 256) (n : Fin 4) : EReal :=
  ∑ k : Fin 2048, A (lab n k) * hot gid (lab n k) g

/-- The accumulator after `n` tiles, from zero. -/
def accUpTo (A : Fin 8192 → EReal) (gid : IVec ⟨1, ![8192]⟩ 32) (g : Fin 256) : (n : Nat) → n ≤ 4 → EReal
  | 0, _ => 0
  | n + 1, h => accUpTo A gid g n (Nat.le_of_succ_le h) + tile A gid g ⟨n, h⟩

end Cert.GroupBce

end
-- ==== Proof.KHot.lean ====
/-
  THE ONE-HOT MATRIX THE REGION FINDS. Before the kernel the program compares every label's group word with every group
  number (the numbers 0 … 255 as words, laid along the columns; the group words laid along the rows) and converts the
  one-bit results to floats: the [8192, 256] matrix whose entry (l, g) is 1 when label l's group word is the word of g,
  else 0. At the ideal instance that entry is `hot gid l g`.
-/
import proofs.«419058_j10642928959862_2_alg».proof.Proof.Gen.KernelIdeal.Frame
import Idealize.ShloMosaic.Lib.Pipeline.Value
import Idealize.ShloMosaic.Lib.Tactic
import proofs.«419058_j10642928959862_2_alg».proof.Proof.KArrays
import proofs.«419058_j10642928959862_2_alg».proof.Proof.Tiles
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Hot

open Cert.KernelIdeal Cert.KernelIdeal.Gen

variable {F : FTy → Type} [FloatOps F]

open Idealize.ShloMosaic.ValueIdx Cert.KernelIdeal.Arrays Cert.GroupBce

/-- A vector laid along the rows of a rectangle (its entries constant along each row) reads, at (p, q), its entry p. -/
theorem rows_apply {α : Type} {n k : Nat} (h₁ : (⟨1, ![n]⟩ : Shape).BroadcastsInDim ⟨2, ![n, 1]⟩ ![0])
    (h₂ : (⟨2, ![n, 1]⟩ : Shape).BroadcastsInDim ⟨2, ![n, k]⟩ ![0, 1]) (v : (⟨1, ![n]⟩ : Shape).Idx → α) (p : Fin n) (q : Fin k) :
    broadcastInDim ⟨2, ![n, k]⟩ ![0, 1] h₂ (broadcastInDim ⟨2, ![n, 1]⟩ ![0] h₁ v) (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · split
    · next h2 => change n = 1 at h2; show (0 : Nat) = p.val; omega
    · rfl

/-- A vector laid along the columns reads, at (p, q), its entry q. -/
theorem cols_apply {α : Type} {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) := by
  simp only [broadcastInDim]
  congr 1
  funext a
  have ha : a = 0 := Subsingleton.elim _ _
  subst ha
  apply Fin.ext
  have hq := q.isLt
  split
  · next h1 => change k = 1 at h1; show (0 : Nat) = q.val; omega
  · split
    · next h2 => change k = 1 at h2; show (0 : Nat) = q.val; omega
    · rfl

variable (m : (ℓ : Loc nD τ sig) → Buf (Elt Ideal) ℓ)

/-- The matrix the region finds is the comparison of the two laid-out vectors, converted. -/
theorem harr_eq (c : Dev nD) :
    (harr m c : S8192x256.Idx → EReal) =
      uitofp (F := Ideal) .bf16 (cmpi .eq
        (broadcastInDim S8192x256 ![0, 1] Facts₀.bcast_S8192x1_S8192x256_0_1 (broadcastInDim S8192x1 ![0] Facts₀.bcast_S8192_S8192x1_0 (m ((c : Thread nD τ).loc main_arg2))))
        (broadcastInDim S8192x256 ![0, 1] Facts₀.bcast_S1x256_S8192x256_0_1 (broadcastInDim S1x256 ![1] Facts₀.bcast_S256_S1x256_1 (iotaInDim S256 32 0)))) := by
  show StableHlo.after hostOps0 (fun b => m (c, b)) (Proc.devRef .tc main_v6) = _
  after_results

/-- Entry (l, g) of the matrix the region finds. -/
theorem harr_apply (c : Dev nD) (l : Fin 8192) (g : Fin 256) :
    harr m c (ix2 l g) = hot (m ((c : Thread nD τ).loc main_arg2)) l g := by
  rw [harr_eq]
  show (((IntOp.cmpi .eq _ _).toNat : ℝ) : EReal) = _
  unfold hot
  rw [rows_apply, cols_apply]
  rfl

end Cert.KernelIdeal.Hot

end
-- ==== Proof.Spec.lean ====
/-
  THE LOSS BOTH PROGRAMS COMPUTE, as one function of the three argument arrays over the extended reals.

  Arguments: logits X : [2048, 8192] (floats), labels Y : [2048, 8192] (32-bit words, read signed), group numbers
  gid : [8192] (32-bit words, read signed). Label l belongs to group g (0 ≤ g < 256) when gid[l], read signed,
  is g; a label whose number is no group belongs to none.

  * logNot x = −(max x 0 + log1p (exp (−|x|))) is log (1 − σ(x)), the stable softplus form;
  * grpLog[b, g] = ∑ over the labels l of group g of logNot X[b, l]   (log of the probability that no label of g fires);
  * anyTrue[b, g] = ∑ over the labels l of group g of Y[b, l]          (how many labels of g are set);
  * bceTerm s c = y · max s (−100) + (1 − y) · max (log1p (−exp s)) (−100) with y = 1 if c > 0 else 0;
  * term[b, g] = bceTerm grpLog[b, g] anyTrue[b, g];
  * loss = (−(∑ term / 524288)) · 0.01 (the last factor the binary32 word nearest 0.01).
-/
import Idealize.ShloMosaic.PureOps.Ideal
import Idealize.ShloMosaic.Lib.ValueIdx

noncomputable section

open scoped BigOperators

namespace Cert.GroupBce

open Idealize.ShloMosaic Idealize.ShloMosaic.ValueIdx

/-- log (1 − σ(x)) = −softplus x, in the form that never overflows. -/
def logNot (x : EReal) : EReal := -(max x 0 + Ideal.log1p (Ideal.exp (-(max x (-x)))))

/-- log of the probability that no label of group `g` fires in row `b`: the sum of `logNot` over the group's labels. -/
def grpLog (X : (⟨2, ![2048, 8192]⟩ : Shape).Idx → EReal) (gid : IVec ⟨1, ![8192]⟩ 32) (b : Fin 2048) (g : Fin 256) : EReal :=
  ∑ l ∈ Finset.univ.filter (fun l : Fin 8192 => (gid (ix1 l)).toInt = (g.val : Int)), logNot (X (ix2 b l))

/-- How many labels of group `g` are set in row `b` (the labels' words read signed and summed). -/
def anyTrue (Y : IVec ⟨2, ![2048, 8192]⟩ 32) (gid : IVec ⟨1, ![8192]⟩ 32) (b : Fin 2048) (g : Fin 256) : EReal :=
  ∑ l ∈ Finset.univ.filter (fun l : Fin 8192 => (gid (ix1 l)).toInt = (g.val : Int)), (((Y (ix2 b l)).toInt : ℝ) : EReal)

/-- One binary cross-entropy term, both logarithms clamped below at −100: `s` the log-probability, `c` the count whose
    positivity is the target. -/
def bceTerm (s c : EReal) : EReal :=
  (((Ideal.cmp .ogt c 0).toNat : ℝ) : EReal) * max s (Ideal.ofBits .f32 0xC2C80000#32)
    + (Ideal.ofBits .f32 0x3F800000#32 - (((Ideal.cmp .ogt c 0).toNat : ℝ) : EReal))
        * max (Ideal.log1p (-(Ideal.exp s))) (Ideal.ofBits .f32 0xC2C80000#32)

/-- The [2048, 256] array of cross-entropy terms. -/
def term (X : (⟨2, ![2048, 8192]⟩ : Shape).Idx → EReal) (Y : IVec ⟨2, ![2048, 8192]⟩ 32) (gid : IVec ⟨1, ![8192]⟩ 32) :
    (⟨2, ![2048, 256]⟩ : Shape).Idx → EReal :=
  fun j => bceTerm (grpLog X gid ⟨(j 0).val, idx2_lt0 j⟩ ⟨(j 1).val, idx2_lt1 j⟩)
    (anyTrue Y gid ⟨(j 0).val, idx2_lt0 j⟩ ⟨(j 1).val, idx2_lt1 j⟩)

theorem term_apply (X : (⟨2, ![2048, 8192]⟩ : Shape).Idx → EReal) (Y : IVec ⟨2, ![2048, 8192]⟩ 32) (gid : IVec ⟨1, ![8192]⟩ 32)
    (b : Fin 2048) (g : Fin 256) : term X Y gid (ix2 b g) = bceTerm (grpLog X gid b g) (anyTrue Y gid b g) := rfl

/-- The scalar loss of a [2048, 256] array of terms: minus its mean, times the word nearest 0.01 — the host operations both
    programs end with, kept as one function so that neither side's proof opens them. -/
def loss (t : FVec Ideal ⟨2, ![2048, 256]⟩ .f32) : FVec Ideal ⟨0, ![]⟩ .f32 :=
  mulf (Host.negf (Host.divf
      (Host.reduceAdd (axes := [0, 1]) (t := ⟨0, ![]⟩) t (constant ⟨0, ![]⟩ .f32 0x00000000#32))
      (constant ⟨0, ![]⟩ .f32 0x49000000#32)))
    (constant ⟨0, ![]⟩ .f32 0x3C23D70A#32)

end Cert.GroupBce

end
-- ==== Proof.Payloads.lean ====
/-
  THE KERNEL BODY'S ARITHMETIC AT ONE ELEMENT, over the extended reals.

  Each value the kernel's body stores is read here at one index of its block:

  * the two zero blocks are 0 everywhere;
  * the labels' conversion reads the 32-bit word signed, exactly;
  * a cast of a block to its own shape is the block;
  * the block product into a zero accumulator, at (p, q), is ∑ over k < 2048 of left[p, k] · right[k, q];
  * the chain on a logit x — 0 − (max z 0 + log1p (exp (0 − |z − 0|))) with z = 0 − (0 − x), behind a guard z ≠ z that
    never fires on the extended reals — is logNot x = −(max x 0 + log1p (exp (−|x|)));
  * so the accumulated log-probability block at (p, q) is old[p, q] + ∑ k, logNot X[p, k] · M[k, q], and the accumulated
    count block is old[p, q] + ∑ k, Y[p, k] · M[k, q];
  * the stored term at (p, q) is bceTerm s c: the bit of c > 0, widened to a word and converted, is 0 or 1 exactly.
-/
import proofs.«419058_j10642928959862_2_alg».proof.Proof.Gen.KernelIdeal.Skeleton
import proofs.«419058_j10642928959862_2_alg».proof.Proof.Spec
import Idealize.ShloMosaic.Lib.ValueIdx
import Idealize.ShloMosaic.PureOps.Ideal.Laws
import Idealize.ShloMosaic.Lib.Pipeline.Value

noncomputable section

open scoped BigOperators

namespace Cert.KernelIdeal.Pay

open Idealize.ShloMosaic Idealize.ShloMosaic.ValueIdx Idealize.SL.Sem
open Cert.KernelIdeal Cert.KernelIdeal.Facts₀ Cert.KernelIdeal.Facts

variable [Cert.KernelIdeal.Facts]

/-! ## The zero blocks, the conversion and the cast -/

/-- A zero splat, cast to its own shape, is 0 at every index. -/
theorem pay3_apply (j : S512x256.Idx) : Gen.k0_pay3 (F := Ideal) j = 0 := by
  unfold Gen.k0_pay3
  rw [shapeCast_self]
  exact Ideal.ofBits_zero_f32

/-- The second zero splat likewise. -/
theorem pay4_apply (j : S512x256.Idx) : Gen.k0_pay4 (F := Ideal) j = 0 := by
  unfold Gen.k0_pay4
  rw [shapeCast_self]
  exact Ideal.ofBits_zero_f32

/-- The labels converted to floats: each word read signed, exactly. -/
theorem pay5_apply (v25 : Vec Ideal S512x2048 .i32) (p : Fin 512) (k : Fin 2048) :
    Gen.k0_pay5 (F := Ideal) v25 (ix2 p k) = (((v25 (ix2 p k)).toInt : ℝ) : EReal) := rfl

/-- The membership block cast to its own shape is itself. -/
theorem pay6_eq (v30 : Vec Ideal S2048x256 .bf16) : Gen.k0_pay6 (F := Ideal) v30 = v30 := by
  unfold Gen.k0_pay6
  exact shapeCast_self _ _

/-! ## The block product read at an output element -/

/-- The left operand's row is the output's row. -/
theorem lhs_dot_S512x2048_S2048x256_S512x256_1_0_0_1_n_n_0 (p : Fin 512) (q : Fin 256) (k : dot_S512x2048_S2048x256_S512x256_1_0_0_1_n_n.contr.Idx) :
    ((dot_S512x2048_S2048x256_S512x256_1_0_0_1_n_n.lhsIdx (ix2 p q) k) 0 : ℕ) = p.val := by
  simp [DotDims.lhsIdx, dot_S512x2048_S2048x256_S512x256_1_0_0_1_n_n]; rfl

/-- The left operand's column is the contraction position's one coordinate. -/
theorem lhs_dot_S512x2048_S2048x256_S512x256_1_0_0_1_n_n_1 (p : Fin 512) (q : Fin 256) (k : dot_S512x2048_S2048x256_S512x256_1_0_0_1_n_n.contr.Idx) :
    ((dot_S512x2048_S2048x256_S512x256_1_0_0_1_n_n.lhsIdx (ix2 p q) k) 1 : ℕ) = (k ⟨0, by decide⟩).val :=
  DotDims.lhsIdx_val_of_single dot_S512x2048_S2048x256_S512x256_1_0_0_1_n_n (cl := 1) rfl _ _

/-- The right operand's row is the contraction position's one coordinate. -/
theorem rhs_dot_S512x2048_S2048x256_S512x256_1_0_0_1_n_n_0 (p : Fin 512) (q : Fin 256) (k : dot_S512x2048_S2048x256_S512x256_1_0_0_1_n_n.contr.Idx) :
    ((dot_S512x2048_S2048x256_S512x256_1_0_0_1_n_n.rhsIdx (ix2 p q) k) 0 : ℕ) = (k ⟨0, by decide⟩).val :=
  DotDims.rhsIdx_val_of_single dot_S512x2048_S2048x256_S512x256_1_0_0_1_n_n (cr := 0) rfl _ _

/-- The right operand's column is the output's column. -/
theorem rhs_dot_S512x2048_S2048x256_S512x256_1_0_0_1_n_n_1 (p : Fin 512) (q : Fin 256) (k : dot_S512x2048_S2048x256_S512x256_1_0_0_1_n_n.contr.Idx) :
    ((dot_S512x2048_S2048x256_S512x256_1_0_0_1_n_n.rhsIdx (ix2 p q) k) 1 : ℕ) = q.val := by
  simp [DotDims.rhsIdx, dot_S512x2048_S2048x256_S512x256_1_0_0_1_n_n]; rfl

/-- The block product into a zero accumulator, at element (p, q): the sum over the contracted coordinate of the
    products of the left operand's row p and the right operand's column q. -/
theorem matmul_apply' (a : FVec Ideal S512x2048 .bf16) (b : FVec Ideal S2048x256 .bf16) (p : Fin 512) (q : Fin 256) :
    matmul dot_S512x2048_S2048x256_S512x256_1_0_0_1_n_n none a b (constant S512x256 .f32 0x00000000#32) (ix2 p q)
      = ∑ k : Fin 2048, a (ix2 p k) * b (ix2 k q) := by
  simp only [matmul]
  rw [Ideal.matmul_constant_zero_apply,
    ← Equiv.sum_comp (contrEquiv1 dot_S512x2048_S2048x256_S512x256_1_0_0_1_n_n 2048 rfl rfl).symm]
  refine Finset.sum_congr rfl fun c _ => ?_
  have hc := contrEquiv1_symm_val dot_S512x2048_S2048x256_S512x256_1_0_0_1_n_n 2048 rfl rfl c
  have hl : dot_S512x2048_S2048x256_S512x256_1_0_0_1_n_n.lhsIdx (ix2 p q) ((contrEquiv1 dot_S512x2048_S2048x256_S512x256_1_0_0_1_n_n 2048 rfl rfl).symm c) = ix2 p c := by
    funext ax; apply Fin.ext
    match ax with
    | ⟨0, _⟩ => exact lhs_dot_S512x2048_S2048x256_S512x256_1_0_0_1_n_n_0 _ _ _
    | ⟨1, _⟩ => exact (lhs_dot_S512x2048_S2048x256_S512x256_1_0_0_1_n_n_1 _ _ _).trans hc
  have hr : dot_S512x2048_S2048x256_S512x256_1_0_0_1_n_n.rhsIdx (ix2 p q) ((contrEquiv1 dot_S512x2048_S2048x256_S512x256_1_0_0_1_n_n 2048 rfl rfl).symm c) = ix2 c q := by
    funext ax; apply Fin.ext
    match ax with
    | ⟨0, _⟩ => exact (rhs_dot_S512x2048_S2048x256_S512x256_1_0_0_1_n_n_0 _ _ _).trans hc
    | ⟨1, _⟩ => exact rhs_dot_S512x2048_S2048x256_S512x256_1_0_0_1_n_n_1 _ _ _
  rw [hl, hr]

/-! ## The elementwise operations the library's list leaves out, read at an index (definitional) -/

theorem exp_apply {s : Shape} {φ : FTy} (a : FVec Ideal s φ) (i : s.Idx) : exp a i = Ideal.exp (a i) := rfl

theorem log1p_apply {s : Shape} {φ : FTy} (a : FVec Ideal s φ) (i : s.Idx) : log1p a i = Ideal.log1p (a i) := rfl

theorem absf_apply {s : Shape} {φ : FTy} (a : FVec Ideal s φ) (i : s.Idx) : absf a i = max (a i) (-(a i)) := rfl

/-- The zero word of a scalar constant is the extended real 0. -/
theorem scalar_zero_f32 : (Scalar.ofBits (F := Ideal) .f32 0x00000000#32 : EReal) = 0 := Ideal.ofBits_zero_f32

/-! ## The softplus chain at one element -/

/-- No extended real differs from itself: the guard bit is 0. -/
theorem cmp_one_self (x : EReal) : Ideal.cmp .one x x = 0#1 := by
  simp [Ideal.cmp]

/-- The kernel's chain on one logit — 0 − (max z 0 + log1p (exp (0 − |z − 0|))) with z = 0 − (0 − x), behind a guard
    that never fires — is log (1 − σ(x)). -/
theorem logNot_chain (x : EReal) :
    (0 : EReal) - Scalar.select (Ideal.cmp .one (0 - (0 - x) - 0) (0 - (0 - x) - 0)) (0 - (0 - x) + 0)
        (max (0 - (0 - x)) 0 + Ideal.log1p (Ideal.exp (0 - max (0 - (0 - x) - 0) (-(0 - (0 - x) - 0)))))
      = Cert.GroupBce.logNot x := by
  rw [cmp_one_self, select_zero]
  simp only [zero_sub, neg_neg, sub_zero]
  rfl

/-- The accumulated block of log-probabilities: the old block plus, over the labels k of the tile, log (1 − σ) of the
    logit times the membership entry. -/
theorem pay7_apply (v3 : Vec Ideal S512x2048 .f32) (v30 : Vec Ideal S2048x256 .bf16) (v32 : Vec Ideal S512x256 .f32)
    (p : Fin 512) (q : Fin 256) :
    Gen.k0_pay7 (F := Ideal) v3 v30 v32 (ix2 p q)
      = v32 (ix2 p q) + ∑ k : Fin 2048, Cert.GroupBce.logNot (v3 (ix2 p k)) * v30 (ix2 k q) := by
  unfold Gen.k0_pay7
  rw [shapeCast_self, addf_apply, pay6_eq, matmul_apply']
  refine congrArg (v32 (ix2 p q) + ·) (Finset.sum_congr rfl fun k _ => ?_)
  refine congrArg (· * v30 (ix2 k q)) ?_
  simp only [truncf_apply, subf_apply, select_apply, cmpf_apply, addf_apply, maximumf_apply, broadcast_apply,
    exp_apply, log1p_apply, absf_apply, Ideal.cmpf_def, scalar_zero_f32]
  exact logNot_chain _

/-- The accumulated block of counts: the old block plus, over the labels k of the tile, the label times the membership
    entry. -/
theorem pay1_apply (v26 : FVec Ideal S512x2048 .bf16) (v31 : FVec Ideal S2048x256 .bf16) (v38 : Vec Ideal S512x256 .f32)
    (p : Fin 512) (q : Fin 256) :
    Gen.k0_pay1 (F := Ideal) v26 v31 v38 (ix2 p q) = v38 (ix2 p q) + ∑ k : Fin 2048, v26 (ix2 p k) * v31 (ix2 k q) := by
  unfold Gen.k0_pay1
  rw [shapeCast_self, addf_apply, matmul_apply']

/-! ## The cross-entropy term at one element -/

/-- A signed conversion at the ideal values reads the word signed, exactly. -/
theorem sitofp_ideal {w : Nat} (φ : FTy) (b : BitVec w) : FloatOps.sitofp (F := Ideal) φ b = ((b.toInt : ℝ) : EReal) := rfl

/-- A one-bit word widened with zeros to 32 bits and read signed is the bit. -/
theorem bit_setWidth_toInt (b : BitVec 1) : (b.setWidth 32).toInt = (b.toNat : Int) := by
  by_cases h : b = 1#1
  · subst h; decide
  · rw [eq_zero_of_ne_one h]; decide

/-- The stored term: y · max s (−100) + (1 − y) · max (log1p (−exp s)) (−100), y the bit of c > 0. -/
theorem pay2_apply (v47 v48 : Vec Ideal S512x256 .f32) (p : Fin 512) (q : Fin 256) :
    Gen.k0_pay2 (F := Ideal) v47 v48 (ix2 p q) = Cert.GroupBce.bceTerm (v47 (ix2 p q)) (v48 (ix2 p q)) := by
  unfold Gen.k0_pay2 Cert.GroupBce.bceTerm
  simp only [addf_apply, mulf_apply, subf_apply, maximumf_apply, broadcast_apply, sitofp_apply, extui_apply, cmpf_apply,
    exp_apply, log1p_apply, Ideal.cmpf_def, sitofp_ideal, bit_setWidth_toInt, Int.cast_natCast, Ideal.ofBits_def,
    Ideal.ofBits_zero_f32, zero_sub]

end Cert.KernelIdeal.Pay

end
-- ==== Proof.SumLaws.lean ====
/-
  THE SUM LAW.

  A product of a row `A` against the one-hot membership column of group `g`, accumulated over the four
  tiles of 2048 labels each, is the sum of `A l` over the labels `l` whose group word reads `g`.
  Everything is arithmetic in the extended reals (where `x * 0 = 0` and `x * 1 = x` hold for every `x`,
  the infinities included) and on 32-bit words.
-/
import proofs.«419058_j10642928959862_2_alg».proof.Proof.Tiles
import Idealize.ShloMosaic.PureOps.Ideal
import Idealize.ShloMosaic.Lib.ValueIdx
import Mathlib.Algebra.BigOperators.Fin
import Mathlib.Algebra.BigOperators.Group.Finset.Basic
import Mathlib.Data.EReal.Basic

noncomputable section

open scoped BigOperators

namespace Cert.GroupBce

open Idealize.ShloMosaic Idealize.ShloMosaic.ValueIdx

/-- The word of a number below 256 reads that number as a signed integer. -/
theorem toInt_word (g : Fin 256) : (BitVec.ofNat 32 g.val).toInt = (g.val : Int) := by
  have hg := g.isLt
  rw [BitVec.toInt_eq_toNat_cond, BitVec.toNat_ofNat]
  have h : g.val % 2 ^ 32 = g.val := Nat.mod_eq_of_lt (by omega)
  rw [h]
  split <;> omega

/-- A 32-bit word equals the word of a number g < 256 exactly when it reads g as a signed integer. -/
theorem word_eq_iff (x : BitVec 32) (g : Fin 256) : x = BitVec.ofNat 32 g.val ↔ x.toInt = (g.val : Int) := by
  constructor
  · rintro rfl
    exact toInt_word g
  · intro hx
    exact BitVec.eq_of_toInt_eq (hx.trans (toInt_word g).symm)

/-- The one-hot entry is 1 on the group's labels and 0 elsewhere. -/
theorem hot_eq (gid : IVec ⟨1, ![8192]⟩ 32) (l : Fin 8192) (g : Fin 256) :
    hot gid l g = if (gid (ix1 l)).toInt = (g.val : Int) then 1 else 0 := by
  unfold hot
  by_cases h : gid (ix1 l) = BitVec.ofNat 32 g.val
  · rw [if_pos ((word_eq_iff _ g).mp h)]
    simp [IntOp.cmpi, h]
  · rw [if_neg (fun h' => h ((word_eq_iff _ g).mpr h'))]
    simp [IntOp.cmpi, h]

/-- The product against the one-hot column over all labels is the sum over the group's labels. -/
theorem sum_hot (A : Fin 8192 → EReal) (gid : IVec ⟨1, ![8192]⟩ 32) (g : Fin 256) :
    ∑ l : Fin 8192, A l * hot gid l g
      = ∑ l ∈ Finset.univ.filter (fun l : Fin 8192 => (gid (ix1 l)).toInt = (g.val : Int)), A l := by
  rw [Finset.sum_filter]
  refine Finset.sum_congr rfl (fun l _ => ?_)
  rw [hot_eq, mul_ite, mul_one, mul_zero]

/-- The labels as pairs (tile, position in the tile). -/
def labEquiv : Fin 4 × Fin 2048 ≃ Fin 8192 where
  toFun p := lab p.1 p.2
  invFun l := (⟨l.val / 2048, by have := l.isLt; omega⟩, ⟨l.val % 2048, Nat.mod_lt _ (by omega)⟩)
  left_inv p := by
    obtain ⟨n, k⟩ := p
    have := n.isLt
    have := k.isLt
    refine Prod.ext (Fin.ext ?_) (Fin.ext ?_)
    · show (2048 * n.val + k.val) / 2048 = n.val
      omega
    · show (2048 * n.val + k.val) % 2048 = k.val
      omega
  right_inv l := by
    refine Fin.ext ?_
    show 2048 * (l.val / 2048) + l.val % 2048 = l.val
    omega

/-- The four tiles partition the labels. -/
theorem sum_tiles (f : Fin 8192 → EReal) : ∑ n : Fin 4, ∑ k : Fin 2048, f (lab n k) = ∑ l : Fin 8192, f l := by
  rw [← Equiv.sum_comp labEquiv f, Fintype.sum_prod_type]
  rfl

/-- The accumulator after the four tiles is the sum over the group's labels. -/
theorem accUpTo_four (A : Fin 8192 → EReal) (gid : IVec ⟨1, ![8192]⟩ 32) (g : Fin 256) :
    accUpTo A gid g 4 (Nat.le_refl 4)
      = ∑ l ∈ Finset.univ.filter (fun l : Fin 8192 => (gid (ix1 l)).toInt = (g.val : Int)), A l := by
  have h4 : accUpTo A gid g 4 (Nat.le_refl 4) = ∑ n : Fin 4, tile A gid g n := by
    simp only [accUpTo, zero_add, Fin.sum_univ_four]
    rfl
  rw [h4, ← sum_hot]
  unfold tile
  exact sum_tiles (fun l => A l * hot gid l g)

end Cert.GroupBce

end
-- ==== Proof.KInv.lean ====
/-
  THE TWO ACCUMULATORS AFTER EVERY GRID POINT, and the output block at the points that write one.

  Point t = 4·i + l works on rows 512·i … 512·i + 511 and on label tile l. After it, element (p, q) of the first
  accumulator is the sum of the first l + 1 tile products of row 512·i + p's log-probabilities against column q of the
  one-hot matrix, and of the second accumulator the same of the row's labels read as numbers (`accN`): by induction on the
  point — a first point of the label axis zeroes and adds tile 0, a later point adds its tile to what the point before
  left. At a last point (l = 3) the output block holds the cross-entropy term of the two complete sums, which by the
  sum law are the sums over the group's labels: the specification's `term` at (512·i + p, q).
-/
import proofs.«419058_j10642928959862_2_alg».proof.Proof.Gen.KernelIdeal.Frame
import Idealize.ShloMosaic.Lib.Pipeline.Value
import Idealize.ShloMosaic.Lib.Tactic
import proofs.«419058_j10642928959862_2_alg».proof.Proof.KHot
import proofs.«419058_j10642928959862_2_alg».proof.Proof.Payloads
import proofs.«419058_j10642928959862_2_alg».proof.Proof.SumLaws
import proofs.«419058_j10642928959862_2_alg».proof.Proof.Spec
set_option maxRecDepth 16384

noncomputable section

open Idealize.ShloMosaic Idealize.ShloMosaic.TcCoe Idealize.SL.Sem
open Idealize.ShloMosaic.Pipeline (Dat)

namespace Cert.KernelIdeal.Inv

open Cert.KernelIdeal Cert.KernelIdeal.Gen

variable {F : FTy → Type} [FloatOps F]

open Idealize.ShloMosaic.ValueIdx Cert.KernelIdeal.Pieces Cert.KernelIdeal.Arrays Cert.KernelIdeal.Hot Cert.GroupBce

variable (m : (ℓ : Loc nD τ sig) → Buf (Elt Ideal) ℓ)

/-- The group words as the program was launched with them. -/
abbrev gidOf (c : Dev nD) : IVec ⟨1, ![8192]⟩ 32 := m ((c : Thread nD τ).loc main_arg2)

/-- Row b's log-probabilities, label by label. -/
def lnRow (c : Dev nD) (b : Fin 2048) : Fin 8192 → EReal := fun l => logNot (xarr m c (ix2 b l))
/-- Row b's labels read as numbers, label by label. -/
def yRow (c : Dev nD) (b : Fin 2048) : Fin 8192 → EReal := fun l => (((yarr m c (ix2 b l)).toInt : ℝ) : EReal)

/-- The accumulator after n tiles, from zero (a tile past the fourth adds nothing). -/
def accN (A : Fin 8192 → EReal) (gid : IVec ⟨1, ![8192]⟩ 32) (g : Fin 256) : Nat → EReal
  | 0 => 0
  | n + 1 => accN A gid g n + (if h : n < 4 then tile A gid g ⟨n, h⟩ else 0)

theorem accN_succ (A : Fin 8192 → EReal) (gid : IVec ⟨1, ![8192]⟩ 32) (g : Fin 256) (n : Nat) (h : n < 4) :
    accN A gid g (n + 1) = accN A gid g n + tile A gid g ⟨n, h⟩ := by
  simp only [accN, dif_pos h]

theorem accN_le (A : Fin 8192 → EReal) (gid : IVec ⟨1, ![8192]⟩ 32) (g : Fin 256) :
    ∀ (n : Nat) (h : n ≤ 4), accN A gid g n = accUpTo A gid g n h
  | 0, _ => rfl
  | n + 1, h => by rw [accN_succ A gid g n (by omega), accN_le A gid g n (by omega)]; rfl

/-- After the four tiles the accumulator is the sum over the group's labels. -/
theorem accN_four (A : Fin 8192 → EReal) (gid : IVec ⟨1, ![8192]⟩ 32) (g : Fin 256) :
    accN A gid g 4 = ∑ l ∈ Finset.univ.filter (fun l : Fin 8192 => (gid (ix1 l)).toInt = (g.val : Int)), A l :=
  (accN_le A gid g 4 (Nat.le_refl 4)).trans (accUpTo_four A gid g)

/-- The product of a block row, whose entries are `A` at the tile's labels, against column q of the loaded one-hot rows is
    the tile's partial product. -/
theorem tile_of_block (c : Dev nD) (t : Fin cfg0.N) (q : Fin 256) (A : Fin 8192 → EReal) (f : Fin 2048 → EReal)
    (hf : ∀ k, f k = A (labOf t k)) :
    ∑ k : Fin 2048, f k * hotRows (grid0.coords t) (hblk m c t) (ix2 k q)
      = tile A (gidOf m c) q ⟨t.val % 4, Nat.mod_lt _ (by decide)⟩ := by
  unfold tile
  refine Finset.sum_congr rfl fun k _ => ?_
  rw [hf k, hotRows_apply m c t k q, harr_apply m c (labOf t k) q]
  rfl

/-- The first accumulator's update at point t, at (p, q): what it held plus the tile's product of the row's log-probabilities. -/
theorem upd0 (c : Dev nD) (t : Fin cfg0.N) (prev : Vec Ideal S512x256 .f32) (p : Fin 512) (q : Fin 256) :
    k0_pay7 (F := Ideal) (xblk m c t) (hotRows (grid0.coords t) (hblk m c t)) prev (ix2 p q)
      = prev (ix2 p q) + tile (lnRow m c (rowOf t p)) (gidOf m c) q ⟨t.val % 4, Nat.mod_lt _ (by decide)⟩ := by
  refine (Cert.KernelIdeal.Pay.pay7_apply (xblk m c t) (hotRows (grid0.coords t) (hblk m c t)) prev p q).trans ?_
  exact congrArg (prev (ix2 p q) + ·)
    (tile_of_block m c t q (lnRow m c (rowOf t p)) _ fun k => by rw [xblk_apply m c t p k]; rfl)

/-- The second accumulator's update at point t, at (p, q): what it held plus the tile's product of the row's labels. -/
theorem upd1 (c : Dev nD) (t : Fin cfg0.N) (prev : Vec Ideal S512x256 .f32) (p : Fin 512) (q : Fin 256) :
    k0_pay1 (F := Ideal) (k0_pay5 (yblk m c t)) (k0_pay6 (hotRows (grid0.coords t) (hblk m c t))) prev (ix2 p q)
      = prev (ix2 p q) + tile (yRow m c (rowOf t p)) (gidOf m c) q ⟨t.val % 4, Nat.mod_lt _ (by decide)⟩ := by
  rw [Cert.KernelIdeal.Pay.pay6_eq]
  refine (Cert.KernelIdeal.Pay.pay1_apply (k0_pay5 (yblk m c t)) (hotRows (grid0.coords t) (hblk m c t)) prev p q).trans ?_
  exact congrArg (prev (ix2 p q) + ·)
    (tile_of_block m c t q (yRow m c (rowOf t p)) _ fun k => by
      rw [Cert.KernelIdeal.Pay.pay5_apply (yblk m c t) p k, yblk_apply m c t p k]; rfl)

/-- THE INVARIANT: both accumulators after point t, by induction on the point's number. -/
theorem accs (c : Dev nD) : ∀ (n : ℕ) (t : Fin cfg0.N), t.val = n → ∀ (p : Fin 512) (q : Fin 256),
    (outsAt0 m c t.val t.isLt).2.1 (ix2 p q) = accN (lnRow m c (rowOf t p)) (gidOf m c) q (t.val % 4 + 1)
    ∧ (outsAt0 m c t.val t.isLt).2.2 (ix2 p q) = accN (yRow m c (rowOf t p)) (gidOf m c) q (t.val % 4 + 1) := by
  intro n
  induction n using Nat.strong_induction_on with
  | _ n IH =>
    intro t htn p q
    have hN : t.val < 16 := lt16 t
    have hmod : t.val % 4 < 4 := Nat.mod_lt _ (by decide)
    rw [accN_succ _ _ _ (t.val % 4) hmod, accN_succ _ _ _ (t.val % 4) hmod]
    by_cases h0 : t.val % 4 = 0
    · have h1 : ¬t.val % 4 = 3 := by omega
      have e := outsAt0_A m c t h0 h1
      have z0 : ∀ A : Fin 8192 → EReal, accN A (gidOf m c) q (t.val % 4) = 0 := fun A => by rw [h0]; rfl
      rw [e]
      dsimp only
      constructor
      · refine (congrFun (sA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 p q)).trans ?_
        refine (upd0 m c t (k0_pay3 (F := Ideal)) p q).trans ?_
        rw [Cert.KernelIdeal.Pay.pay3_apply, z0]
      · refine (congrFun (sA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 p q)).trans ?_
        refine (upd1 m c t (k0_pay4 (F := Ideal)) p q).trans ?_
        rw [Cert.KernelIdeal.Pay.pay4_apply, z0]
    · have hlt : t.val - 1 < cfg0.N := Nat.lt_of_le_of_lt (Nat.sub_le _ _) t.isLt
      have ih := IH (t.val - 1) (by omega) ⟨t.val - 1, hlt⟩ rfl p q
      have hrow : rowOf (⟨t.val - 1, hlt⟩ : Fin cfg0.N) p = rowOf t p := by
        apply Fin.ext
        show 512 * ((t.val - 1) / 4) + p.val = 512 * (t.val / 4) + p.val
        omega
      have hstep : (t.val - 1) % 4 + 1 = t.val % 4 := by omega
      rw [hrow] at ih
      dsimp only at ih
      rw [hstep] at ih
      by_cases h1 : t.val % 4 = 3
      · have e := outsAt0_C m c t h0 h1
        rw [e]
        dsimp only
        constructor
        · refine (congrFun (sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
          refine (upd0 m c t _ p q).trans ?_
          exact congrArg (· + _) ih.1
        · refine (congrFun (sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
          refine (upd1 m c t _ p q).trans ?_
          exact congrArg (· + _) ih.2
      · have e := outsAt0_B m c t h0 h1
        rw [e]
        dsimp only
        constructor
        · refine (congrFun (sB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
          refine (upd0 m c t _ p q).trans ?_
          exact congrArg (· + _) ih.1
        · refine (congrFun (sB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
          refine (upd1 m c t _ p q).trans ?_
          exact congrArg (· + _) ih.2

/-- THE OUTPUT BLOCK at a last point of the label axis, at (p, q): the specification's term at the row and group under it. -/
theorem out_last (c : Dev nD) (t : Fin cfg0.N) (h1 : t.val % 4 = 3) (p : Fin 512) (q : Fin 256) :
    (outsAt0 m c t.val t.isLt).1 (ix2 p q)
      = Cert.GroupBce.term (xarr m c) (yarr m c) (gidOf m c) (ix2 (rowOf t p) q) := by
  have h0 : ¬t.val % 4 = 0 := by omega
  have hacc := accs m c t.val t rfl p q
  have e := outsAt0_C m c t h0 h1
  rw [e] at hacc ⊢
  dsimp only at hacc ⊢
  refine (congrFun (oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  refine (Cert.KernelIdeal.Pay.pay2_apply _ _ p q).trans ?_
  rw [Cert.GroupBce.term_apply]
  have e0 := (congrFun (sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).symm.trans hacc.1
  have e1 := (congrFun (sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).symm.trans hacc.2
  rw [e0, e1, h1, accN_four, accN_four]
  rfl

end Cert.KernelIdeal.Inv

end
-- ==== Proof.KFinal.lean ====
/-
  THE KERNEL PROGRAM'S RESULT. The output array [2048, 256] is written back block by block at the points with l = 3, block
  (i, 0) holding the specification's terms of rows 512·i … 512·i + 511; the four such blocks cover the array, so the array ends
  holding `term` of the argument arrays. The host operations after the region reduce it to the scalar loss.
-/
import proofs.«419058_j10642928959862_2_alg».proof.Proof.Gen.KernelIdeal.Frame
import Idealize.ShloMosaic.Lib.Pipeline.Value
import Idealize.ShloMosaic.Lib.Tactic
import proofs.«419058_j10642928959862_2_alg».proof.Proof.KInv
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable {F : FTy → Type} [FloatOps F]

open Idealize.ShloMosaic.ValueIdx Cert.KernelIdeal.Arrays Cert.KernelIdeal.Inv Cert.GroupBce

variable (m : (ℓ : Loc nD τ sig) → Buf (Elt Ideal) ℓ) (ρ : Dev nD → PrngReg)

/-- The array of terms, of the arrays the region finds. -/
abbrev termsOf (c : Dev nD) : Buf (Elt Ideal) ((c : Thread nD τ).loc main_v7) :=
  Cert.GroupBce.term (xarr m c) (yarr m c) (gidOf m c)

/-- The output block at a last point of the label axis, at any index of the block. -/
theorem out_last_idx (c : Dev nD) (t : Fin cfg0.N) (h1 : t.val % 4 = 3) (j : S512x256.Idx) :
    (outsAt0 m c t.val t.isLt).1 j
      = Cert.GroupBce.term (xarr m c) (yarr m c) (gidOf m c) (ix2 (rowOf t ⟨(j 0).val, idx2_lt0 j⟩) ⟨(j 1).val, idx2_lt1 j⟩) := by
  obtain ⟨p, q, rfl⟩ : ∃ (p : Fin 512) (q : Fin 256), j = ix2 p q := ⟨j 0, j 1, eq_ix2 j⟩
  exact out_last m c t h1 p q

/-- WHAT A WRITING POINT WRITES BACK is its block of the array of terms. -/
theorem flushed_eq (c : Dev nD) (t : Fin cfg0.N) (hf : (cfg0.win 3).flush t = true) :
    (dats m 0 c).flushed 3 t = ((cfg0.win 3).blk t).view.read (Elt Ideal) (termsOf m c) := by
  have h3 : t.val % 4 = 3 := (flush0_3 t).mp hf
  show (cfg0.win 3).cut (grid0.coords t) ((dats m 0 c).after 3 t) = _
  rw [after0_3]
  funext j
  show (outsAt0 m c t.val t.isLt).1 j = termsOf m c (((cfg0.win 3).blk t).view.emb j)
  refine (out_last_idx m c t h3 j).trans ?_
  show Cert.GroupBce.term (xarr m c) (yarr m c) (gidOf m c) _ = Cert.GroupBce.term (xarr m c) (yarr m c) (gidOf m c) _
  congr 1
  funext a
  apply Fin.ext
  match a with
  | ⟨0, _⟩ => show 512 * (t.val / 4) + (j 0).val = win0_3.index t (0 : Fin 2) * 512 + 1 * (j 0).val; rw [(idx3 t).1]; omega
  | ⟨1, _⟩ => show (j 1).val = win0_3.index t (1 : Fin 2) * 256 + 1 * (j 1).val; rw [(idx3 t).2]; omega

/-- An index of the array is in point `t`'s block iff each coordinate is in the block's range on its axis. -/
theorem mem_blk (t : Fin cfg0.N) (i : S2048x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v7).slice (win0_3.rect t)).set ↔ _
  rw [View.set_slice_whole, Rect.mem_set_unit]
  exact Iff.rfl

/-- Every index of the array is under the block of the last point of its row block. -/
theorem cover (i : S2048x256.Idx) : ∃ t : Fin cfg0.N, (cfg0.win 3).flush t = true ∧ i ∈ ((cfg0.win 3).blk t).view.set := by
  have hi0 : (i 0).val < 2048 := (i 0).isLt
  have hi1 : (i 1).val < 256 := (i 1).isLt
  have hN : cfg0.N = 16 := N_0
  let t : Fin cfg0.N := ⟨4 * ((i 0).val / 512) + 3, by rw [hN]; omega⟩
  have ht : t.val = 4 * ((i 0).val / 512) + 3 := rfl
  refine ⟨t, (flush0_3 t).mpr (by rw [ht]; omega), ?_⟩
  rw [mem_blk]
  intro a
  match a with
  | ⟨0, _⟩ =>
    show win0_3.index t (0 : Fin 2) * 512 ≤ (i 0).val ∧ (i 0).val < win0_3.index t (0 : Fin 2) * 512 + 512
    rw [(idx3 t).1, ht]; omega
  | ⟨1, _⟩ =>
    show win0_3.index t (1 : Fin 2) * 256 ≤ (i 1).val ∧ (i 1).val < win0_3.index t (1 : Fin 2) * 256 + 256
    rw [(idx3 t).2]; omega

/-- THE OUTPUT ARRAY after the region: the array of terms. -/
theorem final (c : Dev nD) : (dats m 0 c).arrAt 3 cfg0.N = termsOf m c :=
  (dats m 0 c).arrAt_eq_of_cover 3 (termsOf m c) (flushed_eq m c) cover

/-- The host operations after the region make the loss of the output array. -/
theorem tail_eq (c : Dev nD) :
    Pipeline.afterTail₀ cfgs (dats m) 0 (V0 m) [hostOps1] c main_v11 = Cert.GroupBce.loss (termsOf m c) := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.tc.devRef main_v7)
      = termsOf m c :=
    (Pipeline.withArrays_arr spec0 launch0.win.arr_inj c _ _ 3).trans (final m c)
  rw [e]
  generalize termsOf m c = T
  rfl

/-- The arrays the region finds are the arguments as launched. -/
theorem termsOf_eq (c : Dev nD) :
    termsOf m c = Cert.GroupBce.term (m ((c : Thread nD τ).loc main_arg0)) (m ((c : Thread nD τ).loc main_arg1)) (m ((c : Thread nD τ).loc main_arg2)) := by
  have e0 : xarr m c = m ((c : Thread nD τ).loc main_arg0) := V_main_arg0 m c
  have e1 : yarr m c = m ((c : Thread nD τ).loc main_arg1) := V_main_arg1 m c
  unfold termsOf
  rw [e0, e1]

/-- THE RUN, READ: the kernel program ends with its result at the loss of the terms of its arguments, the arguments unchanged. -/
theorem run : θ_run defs (onTc (τ := τ) (main (F := Ideal))) ⟨m, fun _ => 0, ρ⟩ fun r => ∀ c : Dev nD,
      r.2.mem ((c.tc : Thread nD τ).loc main_v11)
        = Cert.GroupBce.loss (Cert.GroupBce.term (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans
        ((tail_eq m c).trans (congrArg Cert.GroupBce.loss (termsOf_eq m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.RefTerm.lean ====
/-
  THE REFERENCE'S RESULT AS ONE TERM of its three argument arrays: its host operations composed, in the order the
  program applies them, at any float instance.

  log (1 − σ) of the logits is taken elementwise (`logNotArr`: the outlined softplus, negated); the per-group sums are
  scatter-additions along the label axis into a zero [256, 2048] table, transposed back (`segSum`), once of the
  log-probabilities and once of the labels converted to floats; the cross-entropy term is elementwise in the two
  [2048, 256] arrays (`termArr`); the loss is minus its mean times the word nearest 0.01 (`out`).
-/
import proofs.«419058_j10642928959862_2_alg».proof.ReferenceIdeal

noncomputable section

namespace Cert.ReferenceIdeal.RefTerm

open Cert.ReferenceIdeal Idealize.ShloMosaic
open Facts₀ Facts

variable {F : FTy → Type} [FloatOps F] [Facts]

/-- The zero word broadcast over [2048, 8192]. -/
def zeroBL : FVec F S2048x8192 .f32 :=
  broadcastInDim S2048x8192 ![] bcast_S_S2048x8192 (constant S_ .f32 0x00000000#32)

/-- The outlined softplus: max z 0 + log1p (exp (−|z − 0|)), guarded by a test `z − 0 ≠ z − 0` that selects `z + 0`. -/
def softplus (z : FVec F S2048x8192 .f32) : FVec F S2048x8192 .f32 :=
  select (cmpf .une (subf z zeroBL) (subf z zeroBL)) (addf z zeroBL)
    (addf (maximumf z zeroBL) (Host.log1p (Host.exp (Host.negf (Host.absf (subf z zeroBL))))))

/-- log_sigmoid (−X) elementwise: −softplus (−(−X)). -/
def logNotArr (X : FVec F S2048x8192 .f32) : FVec F S2048x8192 .f32 :=
  Host.negf (softplus (Host.negf (Host.negf X)))

/-- The per-group sums of a [8192, 2048] array of updates (labels along axis 0): scatter-added by group number into a zero
    [256, 2048] table, then transposed to [2048, 256]. -/
def segSum (U : FVec F S8192x2048 .f32) (gid : IVec S8192 32) : FVec F S2048x256 .f32 :=
  transpose S2048x256 [1, 0]
    (Host.scatterAdd scatter_S256x2048_S8192x1_S8192x2048_1_0_0_1
      (broadcastInDim S256x2048 ![] bcast_S_S256x2048 (constant S_ .f32 0x00000000#32))
      (broadcastInDim S8192x1 ![0] bcast_S8192_S8192x1_0 gid) U)
    transposes_S256x2048_S2048x256_1_0

/-- The group log-probabilities, [2048, 256]. -/
def grpArr (X : FVec F S2048x8192 .f32) (gid : IVec S8192 32) : FVec F S2048x256 .f32 :=
  segSum (transpose S8192x2048 [1, 0] (logNotArr X) transposes_S2048x8192_S8192x2048_1_0) gid

/-- The group label counts, [2048, 256]. -/
def cntArr (Y : IVec S2048x8192 32) (gid : IVec S8192 32) : FVec F S2048x256 .f32 :=
  segSum (sitofp .f32 (transpose S8192x2048 [1, 0] Y transposes_S2048x8192_S8192x2048_1_0)) gid

/-- The cross-entropy terms from the two [2048, 256] arrays, elementwise. -/
def termOf (s c : FVec F S2048x256 .f32) : FVec F S2048x256 .f32 :=
  addf
    (mulf (uitofp .f32 (cmpf .ogt c (broadcastInDim S2048x256 ![] bcast_S_S2048x256 (constant S_ .f32 0x00000000#32))))
      (maximumf s (broadcastInDim S2048x256 ![] bcast_S_S2048x256 (constant S_ .f32 0xC2C80000#32))))
    (mulf
      (subf (broadcastInDim S2048x256 ![] bcast_S_S2048x256 (constant S_ .f32 0x3F800000#32))
        (uitofp .f32 (cmpf .ogt c (broadcastInDim S2048x256 ![] bcast_S_S2048x256 (constant S_ .f32 0x00000000#32)))))
      (maximumf (Host.log1p (Host.negf (Host.exp s)))
        (broadcastInDim S2048x256 ![] bcast_S_S2048x256 (constant S_ .f32 0xC2C80000#32))))

/-- The [2048, 256] array of terms the reference reduces. -/
def termArr (X : FVec F S2048x8192 .f32) (Y : IVec S2048x8192 32) (gid : IVec S8192 32) : FVec F S2048x256 .f32 :=
  termOf (grpArr X gid) (cntArr Y gid)

/-- The reduction to the scalar loss: minus the mean, times the word nearest 0.01. -/
def lossOf (t : FVec F S2048x256 .f32) : FVec F S_ .f32 :=
  mulf (Host.negf (Host.divf (Host.reduceAdd t (constant S_ .f32 0x00000000#32) reducesTo_S2048x256_S_d0_1 h_S_)
    (constant S_ .f32 0x49000000#32))) (constant S_ .f32 0x3C23D70A#32)

/-- The reference's result. -/
def out (X : FVec F S2048x8192 .f32) (Y : IVec S2048x8192 32) (gid : IVec S8192 32) : FVec F S_ .f32 :=
  lossOf (termArr X Y gid)

end Cert.ReferenceIdeal.RefTerm

end
-- ==== Proof.RefRun.lean ====
/-
  THE REFERENCE PROGRAM'S RUN.

  @main, with its two outlined functions unfolded at their calls, is a straight line of fifty-six host operations: the
  negation of the logits; log_sigmoid's negation, softplus's fourteen operations and log_sigmoid's final negation, each into
  the buffers of the call's record; then the thirty-nine operations after the call (the two scatter-additions by group, the
  elementwise cross-entropy term, the reduction to the scalar loss). Every weakly fair execution of it terminates with the
  result buffer at the composed term `RefTerm.out` of the three arguments' launch contents, and the arguments unchanged.
-/
import proofs.«419058_j10642928959862_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- @main's fifty-six operations in order, the calls unfolded: the operations of @log_sigmoid and, inside it, of @softplus
    stand at the call site, over the buffers of the records `main_call0` and `main_call0.call0`. -/
abbrev ops : List (HloOp τ sig (Elt F)) :=
  [
    unary main_arg0 main_v0 (Host.negf : (⟨S2048x8192, .f32⟩ : BufTy).Contents (Elt F) → (⟨S2048x8192, .f32⟩ : BufTy).Contents (Elt F)),
    TRef.unary (.of main_v0 : TRef sig ⟨S2048x8192, .f32⟩) main_call0.v0 Host.negf,
    TRef.nullary main_call0.call0.cst (constant S_ .f32 0x00000000#32),
    TRef.unary main_call0.call0.cst main_call0.call0.v0 (broadcastInDim S2048x8192 ![] bcast_S_S2048x8192),
    TRef.binary main_call0.v0 main_call0.call0.v0 main_call0.call0.v1 maximumf,
    TRef.unary main_call0.call0.cst main_call0.call0.v2 (broadcastInDim S2048x8192 ![] bcast_S_S2048x8192),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S2048x8192 ![] bcast_S_S2048x8192),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_v1 main_v2 ((transpose S8192x2048 [1, 0] · transposes_S2048x8192_S8192x2048_1_0) : (⟨S2048x8192, .f32⟩ : BufTy).Contents (Elt F) → (⟨S8192x2048, .f32⟩ : BufTy).Contents (Elt F)),
    nullary main_cst (constant S_ .f32 0x00000000#32),
    unary main_cst main_v3 (broadcastInDim S256x2048 ![] bcast_S_S256x2048 : (⟨S_, .f32⟩ : BufTy).Contents (Elt F) → (⟨S256x2048, .f32⟩ : BufTy).Contents (Elt F)),
    unary main_arg2 main_v4 (broadcastInDim S8192x1 ![0] bcast_S8192_S8192x1_0 : (⟨S8192, .i32⟩ : BufTy).Contents (Elt F) → (⟨S8192x1, .i32⟩ : BufTy).Contents (Elt F)),
    ternary main_v3 main_v4 main_v2 main_v5 ((fun x i u => Host.scatterAdd scatter_S256x2048_S8192x1_S8192x2048_1_0_0_1 x i u) : (⟨S256x2048, .f32⟩ : BufTy).Contents (Elt F) → (⟨S8192x1, .i32⟩ : BufTy).Contents (Elt F) → (⟨S8192x2048, .f32⟩ : BufTy).Contents (Elt F) → (⟨S256x2048, .f32⟩ : BufTy).Contents (Elt F)),
    unary main_v5 main_v6 ((transpose S2048x256 [1, 0] · transposes_S256x2048_S2048x256_1_0) : (⟨S256x2048, .f32⟩ : BufTy).Contents (Elt F) → (⟨S2048x256, .f32⟩ : BufTy).Contents (Elt F)),
    unary main_v6 main_v7 (Host.exp : (⟨S2048x256, .f32⟩ : BufTy).Contents (Elt F) → (⟨S2048x256, .f32⟩ : BufTy).Contents (Elt F)),
    unary main_arg1 main_v8 ((transpose S8192x2048 [1, 0] · transposes_S2048x8192_S8192x2048_1_0) : (⟨S2048x8192, .i32⟩ : BufTy).Contents (Elt F) → (⟨S8192x2048, .i32⟩ : BufTy).Contents (Elt F)),
    unary main_v8 main_v9 (sitofp .f32 : (⟨S8192x2048, .i32⟩ : BufTy).Contents (Elt F) → (⟨S8192x2048, .f32⟩ : BufTy).Contents (Elt F)),
    nullary main_cst_0 (constant S_ .f32 0x00000000#32),
    unary main_cst_0 main_v10 (broadcastInDim S256x2048 ![] bcast_S_S256x2048 : (⟨S_, .f32⟩ : BufTy).Contents (Elt F) → (⟨S256x2048, .f32⟩ : BufTy).Contents (Elt F)),
    unary main_arg2 main_v11 (broadcastInDim S8192x1 ![0] bcast_S8192_S8192x1_0 : (⟨S8192, .i32⟩ : BufTy).Contents (Elt F) → (⟨S8192x1, .i32⟩ : BufTy).Contents (Elt F)),
    ternary main_v10 main_v11 main_v9 main_v12 ((fun x i u => Host.scatterAdd scatter_S256x2048_S8192x1_S8192x2048_1_0_0_1 x i u) : (⟨S256x2048, .f32⟩ : BufTy).Contents (Elt F) → (⟨S8192x1, .i32⟩ : BufTy).Contents (Elt F) → (⟨S8192x2048, .f32⟩ : BufTy).Contents (Elt F) → (⟨S256x2048, .f32⟩ : BufTy).Contents (Elt F)),
    unary main_v12 main_v13 ((transpose S2048x256 [1, 0] · transposes_S256x2048_S2048x256_1_0) : (⟨S256x2048, .f32⟩ : BufTy).Contents (Elt F) → (⟨S2048x256, .f32⟩ : BufTy).Contents (Elt F)),
    nullary main_cst_1 (constant S_ .f32 0x00000000#32),
    unary main_cst_1 main_v14 (broadcastInDim S2048x256 ![] bcast_S_S2048x256 : (⟨S_, .f32⟩ : BufTy).Contents (Elt F) → (⟨S2048x256, .f32⟩ : BufTy).Contents (Elt F)),
    binary main_v13 main_v14 main_v15 (cmpf .ogt : (⟨S2048x256, .f32⟩ : BufTy).Contents (Elt F) → (⟨S2048x256, .f32⟩ : BufTy).Contents (Elt F) → (⟨S2048x256, .i1⟩ : BufTy).Contents (Elt F)),
    unary main_v15 main_v16 (uitofp .f32 : (⟨S2048x256, .i1⟩ : BufTy).Contents (Elt F) → (⟨S2048x256, .f32⟩ : BufTy).Contents (Elt F)),
    nullary main_cst_2 (constant S_ .f32 0xC2C80000#32),
    unary main_cst_2 main_v17 (broadcastInDim S2048x256 ![] bcast_S_S2048x256 : (⟨S_, .f32⟩ : BufTy).Contents (Elt F) → (⟨S2048x256, .f32⟩ : BufTy).Contents (Elt F)),
    binary main_v6 main_v17 main_v18 (maximumf : (⟨S2048x256, .f32⟩ : BufTy).Contents (Elt F) → (⟨S2048x256, .f32⟩ : BufTy).Contents (Elt F) → (⟨S2048x256, .f32⟩ : BufTy).Contents (Elt F)),
    unary main_v7 main_v19 (Host.negf : (⟨S2048x256, .f32⟩ : BufTy).Contents (Elt F) → (⟨S2048x256, .f32⟩ : BufTy).Contents (Elt F)),
    unary main_v19 main_v20 (Host.log1p : (⟨S2048x256, .f32⟩ : BufTy).Contents (Elt F) → (⟨S2048x256, .f32⟩ : BufTy).Contents (Elt F)),
    nullary main_cst_3 (constant S_ .f32 0xC2C80000#32),
    unary main_cst_3 main_v21 (broadcastInDim S2048x256 ![] bcast_S_S2048x256 : (⟨S_, .f32⟩ : BufTy).Contents (Elt F) → (⟨S2048x256, .f32⟩ : BufTy).Contents (Elt F)),
    binary main_v20 main_v21 main_v22 (maximumf : (⟨S2048x256, .f32⟩ : BufTy).Contents (Elt F) → (⟨S2048x256, .f32⟩ : BufTy).Contents (Elt F) → (⟨S2048x256, .f32⟩ : BufTy).Contents (Elt F)),
    binary main_v16 main_v18 main_v23 (mulf : (⟨S2048x256, .f32⟩ : BufTy).Contents (Elt F) → (⟨S2048x256, .f32⟩ : BufTy).Contents (Elt F) → (⟨S2048x256, .f32⟩ : BufTy).Contents (Elt F)),
    nullary main_cst_4 (constant S_ .f32 0x3F800000#32),
    unary main_cst_4 main_v24 (broadcastInDim S2048x256 ![] bcast_S_S2048x256 : (⟨S_, .f32⟩ : BufTy).Contents (Elt F) → (⟨S2048x256, .f32⟩ : BufTy).Contents (Elt F)),
    binary main_v24 main_v16 main_v25 (subf : (⟨S2048x256, .f32⟩ : BufTy).Contents (Elt F) → (⟨S2048x256, .f32⟩ : BufTy).Contents (Elt F) → (⟨S2048x256, .f32⟩ : BufTy).Contents (Elt F)),
    binary main_v25 main_v22 main_v26 (mulf : (⟨S2048x256, .f32⟩ : BufTy).Contents (Elt F) → (⟨S2048x256, .f32⟩ : BufTy).Contents (Elt F) → (⟨S2048x256, .f32⟩ : BufTy).Contents (Elt F)),
    binary main_v23 main_v26 main_v27 (addf : (⟨S2048x256, .f32⟩ : BufTy).Contents (Elt F) → (⟨S2048x256, .f32⟩ : BufTy).Contents (Elt F) → (⟨S2048x256, .f32⟩ : BufTy).Contents (Elt F)),
    nullary main_cst_5 (constant S_ .f32 0x00000000#32),
    binary main_v27 main_cst_5 main_v28 ((fun x v => Host.reduceAdd x v reducesTo_S2048x256_S_d0_1 h_S_) : (⟨S2048x256, .f32⟩ : BufTy).Contents (Elt F) → (⟨S_, .f32⟩ : BufTy).Contents (Elt F) → (⟨S_, .f32⟩ : BufTy).Contents (Elt F)),
    nullary main_cst_6 (constant S_ .f32 0x49000000#32),
    binary main_v28 main_cst_6 main_v29 (Host.divf : (⟨S_, .f32⟩ : BufTy).Contents (Elt F) → (⟨S_, .f32⟩ : BufTy).Contents (Elt F) → (⟨S_, .f32⟩ : BufTy).Contents (Elt F)),
    unary main_v29 main_v30 (Host.negf : (⟨S_, .f32⟩ : BufTy).Contents (Elt F) → (⟨S_, .f32⟩ : BufTy).Contents (Elt F)),
    nullary main_cst_7 (constant S_ .f32 0x3C23D70A#32),
    binary main_v30 main_cst_7 main_v31 (mulf : (⟨S_, .f32⟩ : BufTy).Contents (Elt F) → (⟨S_, .f32⟩ : BufTy).Contents (Elt F) → (⟨S_, .f32⟩ : BufTy).Contents (Elt F)) ]

set_option maxRecDepth 1024 in
/-- @main is that straight line: the two functions unfolded at their calls, the sequencing reassociated, both sides are
    one chain of the same steps. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., unary_bufs_sub ..,
    nullary_bufs_sub .., unary_bufs_sub .., unary_bufs_sub .., ternary_bufs_sub .., unary_bufs_sub .., unary_bufs_sub ..,
    unary_bufs_sub .., unary_bufs_sub .., nullary_bufs_sub .., unary_bufs_sub .., unary_bufs_sub .., ternary_bufs_sub ..,
    unary_bufs_sub .., nullary_bufs_sub .., unary_bufs_sub .., binary_bufs_sub .., unary_bufs_sub .., nullary_bufs_sub ..,
    unary_bufs_sub .., binary_bufs_sub .., unary_bufs_sub .., unary_bufs_sub .., nullary_bufs_sub .., unary_bufs_sub ..,
    binary_bufs_sub .., binary_bufs_sub .., nullary_bufs_sub .., unary_bufs_sub .., binary_bufs_sub .., binary_bufs_sub ..,
    binary_bufs_sub .., nullary_bufs_sub .., binary_bufs_sub .., nullary_bufs_sub .., binary_bufs_sub .., unary_bufs_sub ..,
    nullary_bufs_sub .., binary_bufs_sub ..⟩

attribute [local irreducible] Host.scatterAdd Host.reduceAdd transpose in
set_option maxRecDepth 8192 in
/-- The fold read at the result buffer is the composed term: each operation's result at the buffer it writes is its
    function of the contents of the buffers it reads, and the casts of the records' typed references are the identity at
    these literal references. The scatter-addition, the reduction and the transposition stay folded meanwhile: the
    equation never looks inside them. -/
theorem out_eq (V : Valuation τ sig (Elt F)) :
    after ops V (main_v31 : DevRef τ sig)
      = RefTerm.out (V (main_arg0 : DevRef τ sig)) (V (main_arg1 : DevRef τ sig)) (V (main_arg2 : DevRef τ sig)) := by
  unfold RefTerm.out RefTerm.lossOf RefTerm.termArr RefTerm.termOf RefTerm.grpArr RefTerm.cntArr RefTerm.segSum
    RefTerm.logNotArr RefTerm.softplus RefTerm.zeroBL
  simp only [after_cons, after_nil]
  rfl

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

/-- No operation writes the third argument's buffer. -/
theorem arg2_eq (V : Valuation τ sig (Elt F)) :
    after ops V (main_arg2 : DevRef τ sig) = V (main_arg2 : DevRef τ sig) := by
  simp only [after_cons, after_nil]
  rfl

/-- On every device, for any float values, from any memory with zero counters: every weakly fair execution of @main
    terminates with the result buffer at `RefTerm.out` of the three arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = RefTerm.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v31).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.RefValue.lean ====
/-
  THE REFERENCE'S RESULT TERM IS THE SPECIFICATION, at the ideal instance (floats are extended reals).

  Read index by index, the array of terms the reference reduces is `GroupBce.term`:

  * (i) its log (1 − σ) array is `logNot` of each logit: the guard `v ≠ v` of the outlined softplus is false on the
    extended reals, so the select takes max z 0 + log1p (exp (−|z − 0|)); z − 0 = z, the zero array reads 0, |v| is
    max v (−v), and −(−x) = x;
  * (ii) a per-group sum — the scatter-addition of a [8192, 2048] array of updates by group number into the zero
    [256, 2048] table, transposed to [2048, 256] — reads, at (b, g), 0 + the sum of the updates (l, b) over the labels l
    whose group number, read signed, is g: the column of row numbers is `gid` on a new unit axis;
  * (iii) the updates are the transposes of the log (1 − σ) array and of the labels read signed as reals, so the two
    sums are `grpLog` and `anyTrue`;
  * (iv) the term is elementwise in the two sums: a one-bit word converted unsigned is its value, the compared zero
    word is 0, and the words of −100 and of 1 stay the same words on both sides.

  The final reduction to the scalar loss is the specification's own, for any array of terms.
-/
import proofs.«419058_j10642928959862_2_alg».proof.Proof.Spec
import proofs.«419058_j10642928959862_2_alg».proof.Proof.RefTerm
import proofs.«419058_j10642928959862_2_alg».proof.Proof.LibGatherScatter
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Idealize.ShloMosaic Idealize.ShloMosaic.ValueIdx
open Facts₀ Facts

variable [Facts]

/-! ## Constants and scalars broadcast -/

/-- A scalar constant broadcast to any shape reads, everywhere, the extended real its word denotes. -/
theorem scalarConst_apply {T : Shape} (h : S_.BroadcastsInDim T ![]) (w : BitVec FTy.f32.bits) (j : T.Idx) :
    broadcastInDim T ![] h (constant (F := Ideal) S_ .f32 w) j = Ideal.ofBits .f32 w := by
  rw [broadcastInDim_scalar_apply, constant_apply]

/-- The zero array reads 0. -/
theorem zeroBL_apply (j : S2048x8192.Idx) : RefTerm.zeroBL (F := Ideal) j = 0 := by
  unfold RefTerm.zeroBL
  rw [scalarConst_apply, Ideal.ofBits_zero_f32]

/-! ## (i) log (1 − σ) elementwise -/

/-- The guard `v ≠ v` is false on the extended reals. -/
theorem cmp_une_self (v : EReal) : Ideal.cmp .une v v = 0#1 := by
  simp [Ideal.cmp]

/-- The outlined softplus at an index: the guard never fires, and subtracting or adding the zero array changes nothing. -/
theorem softplus_apply (z : FVec Ideal S2048x8192 .f32) (j : S2048x8192.Idx) :
    RefTerm.softplus (F := Ideal) z j = max (z j) 0 + Ideal.log1p (Ideal.exp (-(max (z j) (-(z j))))) := by
  unfold RefTerm.softplus
  rw [select_apply, cmpf_apply, Ideal.cmpf_def, cmp_une_self, select_zero, addf_apply, maximumf_apply, zeroBL_apply]
  show max (z j) 0 + FloatOps.hostUnary .log1p (FloatOps.hostUnary .exp (FloatOps.hostNegf (FloatOps.hostAbsf
    (subf z RefTerm.zeroBL j)))) = _
  rw [Ideal.hostUnary_log1p_def, Ideal.hostUnary_exp_def, Ideal.hostNegf_def, Ideal.negf_def, Ideal.hostAbsf_def,
    Ideal.absf_def, subf_apply, zeroBL_apply, sub_zero]

/-- A double negation on the host is the identity. -/
theorem negNeg_apply (X : FVec Ideal S2048x8192 .f32) (j : S2048x8192.Idx) :
    Host.negf (Host.negf X) j = X j := by
  show FloatOps.hostNegf (FloatOps.hostNegf (X j)) = X j
  rw [Ideal.hostNegf_def, Ideal.hostNegf_def, Ideal.negf_def, Ideal.negf_def, neg_neg]

/-- (i) The reference's log (1 − σ(x)) array is `logNot` of each logit. -/
theorem logNotArr_apply (X : FVec Ideal S2048x8192 .f32) (j : S2048x8192.Idx) :
    RefTerm.logNotArr (F := Ideal) X j = Cert.GroupBce.logNot (X j) := by
  unfold RefTerm.logNotArr Cert.GroupBce.logNot
  show FloatOps.hostNegf (RefTerm.softplus (Host.negf (Host.negf X)) j) = _
  rw [Ideal.hostNegf_def, Ideal.negf_def, softplus_apply, negNeg_apply]

/-! ## (ii) The per-group sums -/

/-- The column of group numbers, `gid` broadcast along a new unit axis, reads `gid` at the row. -/
theorem gidCol_apply (gid : IVec S8192 32) (e : Fin 8192) :
    broadcastInDim S8192x1 ![0] bcast_S8192_S8192x1_0 gid (ix2 e 0) = gid (ix1 e) :=
  broadcastInDim_apply _ _ gid _ (ix1 e) fun a => match a with | ⟨0, _⟩ => rfl

/-- (ii) The scatter-addition into the zero table, transposed back: at (b, g) the sum of the updates (l, b) over the
    labels l whose group number is g. -/
theorem segSum_apply (V : FVec Ideal S8192x2048 .f32) (gid : IVec S8192 32) (b : Fin 2048) (g : Fin 256) :
    RefTerm.segSum (F := Ideal) V gid (ix2 b g)
      = ∑ l ∈ Finset.univ.filter (fun l : Fin 8192 => (gid (ix1 l)).toInt = (g.val : Int)), V (ix2 l b) := by
  unfold RefTerm.segSum
  rw [transpose_ix2_apply, Cert.Bridge.GS.scatterAdd_apply _ rfl rfl rfl rfl, scalarConst_apply, Ideal.ofBits_zero_f32,
    zero_add]
  exact Finset.sum_congr (Finset.filter_congr fun e _ => by rw [gidCol_apply]) fun _ _ => rfl

/-! ## (iii) The two arrays of updates -/

/-- The group log-probabilities are `grpLog`. -/
theorem grpArr_apply (X : FVec Ideal S2048x8192 .f32) (gid : IVec S8192 32) (b : Fin 2048) (g : Fin 256) :
    RefTerm.grpArr (F := Ideal) X gid (ix2 b g) = Cert.GroupBce.grpLog X gid b g := by
  unfold RefTerm.grpArr Cert.GroupBce.grpLog
  rw [segSum_apply]
  exact Finset.sum_congr rfl fun l _ => by rw [transpose_ix2_apply, logNotArr_apply]

/-- The group label counts are `anyTrue`. -/
theorem cntArr_apply (Y : IVec S2048x8192 32) (gid : IVec S8192 32) (b : Fin 2048) (g : Fin 256) :
    RefTerm.cntArr (F := Ideal) Y gid (ix2 b g) = Cert.GroupBce.anyTrue Y gid b g := by
  unfold RefTerm.cntArr Cert.GroupBce.anyTrue
  rw [segSum_apply]
  refine Finset.sum_congr rfl fun l _ => ?_
  rw [sitofp_apply, transpose_ix2_apply]
  rfl

/-! ## (iv) The cross-entropy term elementwise -/

/-- A word converted unsigned to a float is, on the extended reals, its value. -/
theorem uitofp_apply {s : Shape} {w : Nat} (x : IVec s w) (i : s.Idx) :
    (uitofp .f32 x : FVec Ideal s .f32) i = (((x i).toNat : ℝ) : EReal) := rfl

/-- log1p (−exp s) on the host at an index. -/
theorem log1pNegExp_apply (s : FVec Ideal S2048x256 .f32) (j : S2048x256.Idx) :
    Host.log1p (Host.negf (Host.exp s)) j = Ideal.log1p (-(Ideal.exp (s j))) := rfl

/-- (iv) The elementwise term is `bceTerm` of the two elements. -/
theorem termOf_apply (s c : FVec Ideal S2048x256 .f32) (j : S2048x256.Idx) :
    RefTerm.termOf (F := Ideal) s c j = Cert.GroupBce.bceTerm (s j) (c j) := by
  unfold RefTerm.termOf Cert.GroupBce.bceTerm
  rw [addf_apply, mulf_apply, mulf_apply, subf_apply, maximumf_apply, maximumf_apply, uitofp_apply, cmpf_apply,
    Ideal.cmpf_def, log1pNegExp_apply, scalarConst_apply, scalarConst_apply, scalarConst_apply, Ideal.ofBits_zero_f32]

/-! ## The term array and the result -/

theorem termArr_eq (X : FVec Ideal S2048x8192 .f32) (Y : IVec S2048x8192 32) (gid : IVec S8192 32) :
    RefTerm.termArr (F := Ideal) X Y gid = Cert.GroupBce.term X Y gid := by
  funext j
  obtain ⟨b, g, rfl⟩ : ∃ (b : Fin 2048) (g : Fin 256), j = ix2 b g := ⟨j 0, j 1, eq_ix2 j⟩
  rw [Cert.GroupBce.term_apply]
  unfold RefTerm.termArr
  rw [termOf_apply, grpArr_apply, cntArr_apply]

/-- The reduction to the scalar loss is the specification's, for any array of terms. -/
theorem lossOf_eq (t : FVec Ideal S2048x256 .f32) : RefTerm.lossOf (F := Ideal) t = Cert.GroupBce.loss t := rfl

theorem out_eq (X : FVec Ideal S2048x8192 .f32) (Y : IVec S2048x8192 32) (gid : IVec S8192 32) :
    RefTerm.out (F := Ideal) X Y gid = Cert.GroupBce.loss (Cert.GroupBce.term X Y gid) := by
  unfold RefTerm.out
  rw [termArr_eq, lossOf_eq]

end Cert.ReferenceIdeal.RefValue

end
-- ==== Proof.lean ====
/-
  THE CERTIFICATE: a grouped binary cross-entropy loss computed by a tiled kernel equals its plain reference over the
  extended reals.

  Both programs take logits X [2048, 8192], labels Y [2048, 8192] and a group number per label gid [8192] (256 groups) and
  return one scalar: with logNot = log (1 − σ), s[b, g] = ∑ over the labels l of group g of logNot X[b, l] and
  c[b, g] = ∑ over the same labels of Y[b, l], the loss is −mean over (b, g) of
  y · max s (−100) + (1 − y) · max (log1p (−exp s)) (−100), y = [c > 0], times the word nearest 0.01.

  The reference forms the two per-group sums by scatter-additions along the label axis. The kernel forms them as matrix
  products against the one-hot membership matrix, accumulated over four label tiles of 2048 in two scratch accumulators per
  512-row block, and writes the cross-entropy terms at the last tile; the same host operations then reduce the [2048, 256]
  terms to the scalar. Over the extended reals a product against a 0/1 column is the sum over the column's ones
  (x · 0 = 0 and x · 1 = x for every extended real, and addition is commutative and associative), so both arrays of terms are
  one function of the arguments — no finiteness of the logits is used.

  The three frames: the kernel programs' are the generated frame runs; the reference's is its run with the result dropped.
  The idealization rewrote nothing, so the preservation claim is trivial.
-/
import proofs.«419058_j10642928959862_2_alg».proof.Defs
import proofs.«419058_j10642928959862_2_alg».proof.Proof.Gen.Kernel
import proofs.«419058_j10642928959862_2_alg».proof.Proof.Gen.Kernel.Frame
import proofs.«419058_j10642928959862_2_alg».proof.Proof.Gen.KernelIdeal
import proofs.«419058_j10642928959862_2_alg».proof.Proof.Gen.KernelIdeal.Frame
import proofs.«419058_j10642928959862_2_alg».proof.Proof.Gen.ReferenceIdeal
import proofs.«419058_j10642928959862_2_alg».proof.Proof.Gen.Pre_finite_inputs
import proofs.«419058_j10642928959862_2_alg».proof.Proof.KFinal
import proofs.«419058_j10642928959862_2_alg».proof.Proof.RefRun
import proofs.«419058_j10642928959862_2_alg».proof.Proof.RefValue
import Idealize.ShloMosaic.Adequacy
import Idealize.ShloMosaic.Init

noncomputable section

namespace Cert.Proof

open Idealize.ShloMosaic Idealize.SL.Sem

/-- The word-level kernel program runs and keeps its arguments: the generated frame run. -/
theorem frame_k : Cert.frame_Kernel := fun m ρ _ => Cert.Kernel.Gen.frame m ρ

/-- The idealized kernel program runs and keeps its arguments: the generated frame run. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the loss of the terms of arguments that agree. -/
theorem algebraic : Cert.algebraic_KernelIdeal_ReferenceIdeal := by
  intro m ρ m' ρ' _ hagree
  refine ⟨fun c => Cert.GroupBce.loss (Cert.GroupBce.term
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
